-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S768x384 : Shape := ⟨2, ![768, 384]⟩
abbrev S384 : Shape := ⟨1, ![384]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_

variable [Facts]

def fn {F : FTy → Type} [FloatOps F] (main_arg0 : FVec F S64x3x224x224 .f32) (main_arg1 : FVec F S768x384 .f32) (main_arg2 : FVec F S384 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  main_v13
-- ==== Kernel.lean ====
abbrev S64x3x224x224 : Shape := ⟨4, ![64, 3, 224, 224]⟩
abbrev S768x384 : Shape := ⟨2, ![768, 384]⟩
abbrev S384 : Shape := ⟨1, ![384]⟩
abbrev S16x16x3x384 : Shape := ⟨4, ![16, 16, 3, 384]⟩
abbrev S16x3x16x384 : Shape := ⟨4, ![16, 3, 16, 384]⟩
abbrev S1x384 : Shape := ⟨2, ![1, 384]⟩
abbrev S64x196x384 : Shape := ⟨3, ![64, 196, 384]⟩
abbrev S8x3x224x224 : Shape := ⟨4, ![8, 3, 224, 224]⟩
abbrev S8x196x384 : Shape := ⟨3, ![8, 196, 384]⟩
abbrev S8x3x14x16x224 : Shape := ⟨5, ![8, 3, 14, 16, 224]⟩
abbrev S8x14x3x16x224 : Shape := ⟨5, ![8, 14, 3, 16, 224]⟩
abbrev S8x14x48x224 : Shape := ⟨4, ![8, 14, 48, 224]⟩
abbrev S8x14x224x48 : Shape := ⟨4, ![8, 14, 224, 48]⟩
abbrev S8x14x14x16x48 : Shape := ⟨5, ![8, 14, 14, 16, 48]⟩
abbrev S8x14x14x1x48 : Shape := ⟨5, ![8, 14, 14, 1, 48]⟩
abbrev S8x14x14x48 : Shape := ⟨4, ![8, 14, 14, 48]⟩
abbrev S8x14x14x768 : Shape := ⟨4, ![8, 14, 14, 768]⟩
abbrev S1568x768 : Shape := ⟨2, ![1568, 768]⟩
abbrev S1568x384 : Shape := ⟨2, ![1568, 384]⟩

abbrev nBuf : Space → Nat
  | .hbm => 9
  | .vmem => 6
  | .smem => 0
  | _ => 0

abbrev bufTy : (tb : Table) → Fin (tcTables nBuf tb) → BufTy
  | .hbm, ⟨0, _⟩ => ⟨S64x3x224x224, .f32⟩
  | .hbm, ⟨1, _⟩ => ⟨S768x384, .f32⟩
  | .hbm, ⟨2, _⟩ => ⟨S384, .f32⟩
  | .hbm, ⟨3, _⟩ => ⟨S16x16x3x384, .f32⟩
  | .hbm, ⟨4, _⟩ => ⟨S16x3x16x384, .f32⟩
  | .hbm, ⟨5, _⟩ => ⟨S768x384, .f32⟩
  | .hbm, ⟨6, _⟩ => ⟨S768x384, .bf16⟩
  | .hbm, ⟨7, _⟩ => ⟨S1x384, .f32⟩
  | .hbm, ⟨8, _⟩ => ⟨S64x196x384, .f32⟩
  | .local _ .vmem, ⟨0, _⟩ => ⟨S8x3x224x224, .f32⟩
  | .local _ .vmem, ⟨1, _⟩ => ⟨S8x3x224x224, .f32⟩
  | .local _ .vmem, ⟨2, _⟩ => ⟨S768x384, .bf16⟩
  | .local _ .vmem, ⟨3, _⟩ => ⟨S1x384, .f32⟩
  | .local _ .vmem, ⟨4, _⟩ => ⟨S8x196x384, .f32⟩
  | .local _ .vmem, ⟨5, _⟩ => ⟨S8x196x384, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x196x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S768x384_S16x16x3x384 : S768x384.ShapeCasts S16x16x3x384
  transposes_S16x16x3x384_S16x3x16x384_1_2_0_3 : S16x16x3x384.Transposes [1, 2, 0, 3] S16x3x16x384
  shapeCasts_S16x3x16x384_S768x384 : S16x3x16x384.ShapeCasts S768x384
  bitsLt_bf16_f32 : FTy.bits .bf16 < FTy.bits .f32
  shapeCasts_S384_S1x384 : S384.ShapeCasts S1x384
  inb_S8x3x224x224_S8x3x224x224_0_0_0_0 : ∀ a, (![0, 0, 0, 0] : Fin 4 → Nat) a + S8x3x224x224.size a ≤ S8x3x224x224.size a
  h_S8x3x224x224 : 0 < S8x3x224x224.numel
  shapeCasts_S8x3x224x224_S8x3x14x16x224 : S8x3x224x224.ShapeCasts S8x3x14x16x224
  transposes_S8x3x14x16x224_p0_2_1_3_4_S8x14x3x16x224 : S8x3x14x16x224.Transposes [0, 2, 1, 3, 4] S8x14x3x16x224
  shapeCasts_S8x14x3x16x224_S8x14x48x224 : S8x14x3x16x224.ShapeCasts S8x14x48x224
  transposes_S8x14x48x224_p0_1_3_2_S8x14x224x48 : S8x14x48x224.Transposes [0, 1, 3, 2] S8x14x224x48
  shapeCasts_S8x14x224x48_S8x14x14x16x48 : S8x14x224x48.ShapeCasts S8x14x14x16x48
  slices_S8x14x14x16x48_o0_0_0_0_0_S8x14x14x1x48 : S8x14x14x16x48.Slices ![0, 0, 0, 0, 0] S8x14x14x1x48
  shapeCasts_S8x14x14x1x48_S8x14x14x48 : S8x14x14x1x48.ShapeCasts S8x14x14x48
  slices_S8x14x14x16x48_o0_0_0_1_0_S8x14x14x1x48 : S8x14x14x16x48.Slices ![0, 0, 0, 1, 0] S8x14x14x1x48
  slices_S8x14x14x16x48_o0_0_0_2_0_S8x14x14x1x48 : S8x14x14x16x48.Slices ![0, 0, 0, 2, 0] S8x14x14x1x48
  slices_S8x14x14x16x48_o0_0_0_3_0_S8x14x14x1x48 : S8x14x14x16x48.Slices ![0, 0, 0, 3, 0] S8x14x14x1x48
  slices_S8x14x14x16x48_o0_0_0_4_0_S8x14x14x1x48 : S8x14x14x16x48.Slices ![0, 0, 0, 4, 0] S8x14x14x1x48
  slices_S8x14x14x16x48_o0_0_0_5_0_S8x14x14x1x48 : S8x14x14x16x48.Slices ![0, 0, 0, 5, 0] S8x14x14x1x48
  slices_S8x14x14x16x48_o0_0_0_6_0_S8x14x14x1x48 : S8x14x14x16x48.Slices ![0, 0, 0, 6, 0] S8x14x14x1x48
  slices_S8x14x14x16x48_o0_0_0_7_0_S8x14x14x1x48 : S8x14x14x16x48.Slices ![0, 0, 0, 7, 0] S8x14x14x1x48
  slices_S8x14x14x16x48_o0_0_0_8_0_S8x14x14x1x48 : S8x14x14x16x48.Slices ![0, 0, 0, 8, 0] S8x14x14x1x48
  slices_S8x14x14x16x48_o0_0_0_9_0_S8x14x14x1x48 : S8x14x14x16x48.Slices ![0, 0, 0, 9, 0] S8x14x14x1x48
  slices_S8x14x14x16x48_o0_0_0_10_0_S8x14x14x1x48 : S8x14x14x16x48.Slices ![0, 0, 0, 10, 0] S8x14x14x1x48
  slices_S8x14x14x16x48_o0_0_0_11_0_S8x14x14x1x48 : S8x14x14x16x48.Slices ![0, 0, 0, 11, 0] S8x14x14x1x48
  slices_S8x14x14x16x48_o0_0_0_12_0_S8x14x14x1x48 : S8x14x14x16x48.Slices ![0, 0, 0, 12, 0] S8x14x14x1x48
  slices_S8x14x14x16x48_o0_0_0_13_0_S8x14x14x1x48 : S8x14x14x16x48.Slices ![0, 0, 0, 13, 0] S8x14x14x1x48
  slices_S8x14x14x16x48_o0_0_0_14_0_S8x14x14x1x48 : S8x14x14x16x48.Slices ![0, 0, 0, 14, 0] S8x14x14x1x48
  slices_S8x14x14x16x48_o0_0_0_15_0_S8x14x14x1x48 : S8x14x14x16x48.Slices ![0, 0, 0, 15, 0] S8x14x14x1x48
  concatenates_S8x14x14x48_S8x14x14x48_S8x14x14x48_S8x14x14x48_S8x14x14x48_S8x14x14x48_S8x14x14x48_S8x14x14x48_S8x14x14x48_S8x14x14x48_S8x14x14x48_S8x14x14x48_S8x14x14x48_S8x14x14x48_S8x14x14x48_S8x14x14x48_S8x14x14x768_d3 : Shape.Concatenates [S8x14x14x48, S8x14x14x48, S8x14x14x48, S8x14x14x48, S8x14x14x48, S8x14x14x48, S8x14x14x48, S8x14x14x48, S8x14x14x48, S8x14x14x48, S8x14x14x48, S8x14x14x48, S8x14x14x48, S8x14x14x48, S8x14x14x48, S8x14x14x48] S8x14x14x768 3
  shapeCasts_S8x14x14x768_S1568x768 : S8x14x14x768.ShapeCasts S1568x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1568x384 : S1x384.Broadcasts S1568x384
  shapeCasts_S1568x384_S8x196x384 : S1568x384.ShapeCasts S8x196x384
  inb_S8x196x384_S8x196x384_0_0_0 : ∀ a, (![0, 0, 0] : Fin 3 → Nat) a + S8x196x384.size a ≤ S8x196x384.size a
  h_S8x196x384 : 0 < S8x196x384.numel
  dot_S1568x768_S768x384_S1568x384_1_0_0_1_n_n_wf : DotDims.WF S1568x768 S768x384 S1568x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x224x224.size a ≤ S64x3x224x224.size a
  hwx0_0 : ∀ i : grid0.Coords, EltTy.bits .f32 = 32 ∨ (Rect.block (s := S64x3x224x224) S8x3x224x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .bf16 = 32 ∨ (Rect.block (s := S768x384) S768x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x196x384.size a ≤ S64x196x384.size a
  hwx0_3 : ∀ i : grid0.Coords, EltTy.bits .f32 = 32 ∨ (Rect.block (s := S64x196x384) S8x196x384.size (cc0_transform_3 i) (hinb0_3 i)).WholeWords (EltTy.packing .f32)

variable [Facts₀]

def dot_S1568x768_S768x384_S1568x384_1_0_0_1_n_n : DotDims S1568x768 S768x384 S1568x384 where
  lhsContracting := [1]
  rhsContracting := [0]
  lhsNonContracting := [0]
  rhsNonContracting := [1]
  lhsBatch := []
  rhsBatch := []
  wf := dot_S1568x768_S768x384_S1568x384_1_0_0_1_n_n_wf

abbrev win0_0 : Pipeline.Window sig grid0 :=
  Pipeline.Window.ofSpec (Memref.whole main_arg0) S8x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x196x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S768x384 : Shape := ⟨2, ![768, 384]⟩
abbrev S384 : Shape := ⟨1, ![384]⟩
abbrev S64x3x14x16x14x16 : Shape := ⟨6, ![64, 3, 14, 16, 14, 16]⟩
abbrev S64x14x14x16x16x3 : Shape := ⟨6, ![64, 14, 14, 16, 16, 3]⟩
abbrev S12544x768 : Shape := ⟨2, ![12544, 768]⟩
abbrev S1x384 : Shape := ⟨2, ![1, 384]⟩
abbrev S12544x384 : Shape := ⟨2, ![12544, 384]⟩
abbrev S64x196x384 : Shape := ⟨3, ![64, 196, 384]⟩
abbrev S256x768 : Shape := ⟨2, ![256, 768]⟩
abbrev S256x384 : Shape := ⟨2, ![256, 384]⟩

abbrev nBuf : Space → Nat
  | .hbm => 9
  | .vmem => 6
  | .smem => 0
  | _ => 0

abbrev bufTy : (tb : Table) → Fin (tcTables nBuf tb) → BufTy
  | .hbm, ⟨0, _⟩ => ⟨S64x3x224x224, .f32⟩
  | .hbm, ⟨1, _⟩ => ⟨S768x384, .f32⟩
  | .hbm, ⟨2, _⟩ => ⟨S384, .f32⟩
  | .hbm, ⟨3, _⟩ => ⟨S64x3x14x16x14x16, .f32⟩
  | .hbm, ⟨4, _⟩ => ⟨S64x14x14x16x16x3, .f32⟩
  | .hbm, ⟨5, _⟩ => ⟨S12544x768, .f32⟩
  | .hbm, ⟨6, _⟩ => ⟨S1x384, .f32⟩
  | .hbm, ⟨7, _⟩ => ⟨S12544x384, .f32⟩
  | .hbm, ⟨8, _⟩ => ⟨S64x196x384, .f32⟩
  | .local _ .vmem, ⟨0, _⟩ => ⟨S256x768, .f32⟩
  | .local _ .vmem, ⟨1, _⟩ => ⟨S256x768, .f32⟩
  | .local _ .vmem, ⟨2, _⟩ => ⟨S768x384, .f32⟩
  | .local _ .vmem, ⟨3, _⟩ => ⟨S1x384, .f32⟩
  | .local _ .vmem, ⟨4, _⟩ => ⟨S256x384, .f32⟩
  | .local _ .vmem, ⟨5, _⟩ => ⟨S256x384, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![49, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S64x3x224x224_S64x3x14x16x14x16 : S64x3x224x224.ShapeCasts S64x3x14x16x14x16
  transposes_S64x3x14x16x14x16_S64x14x14x16x16x3_0_2_4_3_5_1 : S64x3x14x16x14x16.Transposes [0, 2, 4, 3, 5, 1] S64x14x14x16x16x3
  shapeCasts_S64x14x14x16x16x3_S12544x768 : S64x14x14x16x16x3.ShapeCasts S12544x768
  shapeCasts_S384_S1x384 : S384.ShapeCasts S1x384
  shapeCasts_S12544x384_S64x196x384 : S12544x384.ShapeCasts S64x196x384
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x384_S768x384_0_0 : ∀ a, (![0, 0] : Fin 2 → Nat) a + S768x384.size a ≤ S768x384.size a
  h_S768x384 : 0 < S768x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S256x384_S256x384_0_0 : ∀ a, (![0, 0] : Fin 2 → Nat) a + S256x384.size a ≤ S256x384.size a
  h_S256x384 : 0 < S256x384.numel
  dot_S256x768_S768x384_S256x384_1_0_0_1_n_n_wf : DotDims.WF S256x768 S768x384 S256x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S12544x768.size a
  hwx0_0 : ∀ i : grid0.Coords, EltTy.bits .f32 = 32 ∨ (Rect.block (s := S12544x768) S256x768.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S12544x384.size a
  hwx0_3 : ∀ i : grid0.Coords, EltTy.bits .f32 = 32 ∨ (Rect.block (s := S12544x384) S256x384.size (cc0_transform_3 i) (hinb0_3 i)).WholeWords (EltTy.packing .f32)

variable [Facts₀]

def dot_S256x768_S768x384_S256x384_1_0_0_1_n_n : DotDims S256x768 S768x384 S256x384 where
  lhsContracting := [1]
  rhsContracting := [0]
  lhsNonContracting := [0]
  rhsNonContracting := [1]
  lhsBatch := []
  rhsBatch := []
  wf := dot_S256x768_S768x384_S256x384_1_0_0_1_n_n_wf

abbrev win0_0 : Pipeline.Window sig grid0 :=
  Pipeline.Window.ofSpec (Memref.whole main_call0_v2) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x384.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x384.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S256x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The patch embedding as one function of the three argument arrays.

  An image `x[b, c, H, W]` (64 × 3 × 224 × 224) is cut into 14 × 14 patches of 16 × 16 pixels; patch `r = hp · 14 + wp`
  of image `b` is laid out as a row of 768 numbers, multiplied by the 768 × 384 weight matrix, and the bias is added:

    out[b, r, e] = Σ_k row(b, r)[k] · w[k, e] + bias[e].

  Two orders of the 768 entries of a row occur. With the channel fastest, entry `k = (p1 · 16 + p2) · 3 + c` is pixel
  `(hp · 16 + p1, wp · 16 + p2)` of channel `c`; this is the order of the rows of `w`. With the pixel row fastest,
  entry `k = p2 · 48 + c · 16 + p1` is the same pixel, and the weight row that multiplies it is row
  `(p1 · 16 + p2) · 3 + c`. The two sums have the same 768 terms, listed along a bijection of the index
  (`perm`), so they are equal in any commutative monoid, in particular over the extended reals with no
  finiteness needed (`embedK_eq`).
-/
import Idealize.ShloMosaic.Lib.ValueIdx
import Idealize.ShloMosaic.PureOps.Ideal.Laws

noncomputable section

namespace Cert.Spec

open Idealize.ShloMosaic Idealize.ShloMosaic.ValueIdx

abbrev SX : Shape := ⟨4, ![64, 3, 224, 224]⟩
abbrev SW : Shape := ⟨2, ![768, 384]⟩
abbrev SB : Shape := ⟨1, ![384]⟩
abbrev SO : Shape := ⟨3, ![64, 196, 384]⟩

/-! ## Channel fastest: entry `k = (p1 · 16 + p2) · 3 + c` -/

/-- The channel of entry `k`. -/
def chanR (k : Fin 768) : Fin 3 := ⟨k.val % 3, by omega⟩
/-- The pixel row of entry `k` of patch `r`: patch row `r / 14`, row `k / 48` inside the patch. -/
def rowR (r : Fin 196) (k : Fin 768) : Fin 224 := ⟨r.val / 14 * 16 + k.val / 48, by omega⟩
/-- The pixel column of entry `k` of patch `r`: patch column `r % 14`, column `k / 3 % 16` inside the patch. -/
def colR (r : Fin 196) (k : Fin 768) : Fin 224 := ⟨r.val % 14 * 16 + k.val / 3 % 16, by omega⟩

/-! ## Pixel row fastest: entry `k = p2 · 48 + c · 16 + p1` -/

def chanK (k : Fin 768) : Fin 3 := ⟨k.val / 16 % 3, by omega⟩
def rowK (r : Fin 196) (k : Fin 768) : Fin 224 := ⟨r.val / 14 * 16 + k.val % 16, by omega⟩
def colK (r : Fin 196) (k : Fin 768) : Fin 224 := ⟨r.val % 14 * 16 + k.val / 48, by omega⟩

/-- The weight row that multiplies entry `k = p2 · 48 + c · 16 + p1`: row `(p1 · 16 + p2) · 3 + c`. -/
def perm (k : Fin 768) : Fin 768 := ⟨(k.val % 16 * 16 + k.val / 48) * 3 + k.val / 16 % 3, by omega⟩
/-- And back: entry `k' = (p1 · 16 + p2) · 3 + c` comes from `p2 · 48 + c · 16 + p1`. -/
def permInv (k : Fin 768) : Fin 768 := ⟨k.val / 3 % 16 * 48 + k.val % 3 * 16 + k.val / 48, by omega⟩

/-- Dividing by 16 and then by 3, or by 3 and then by 16, is dividing by 48. -/
theorem div16_3 (n : ℕ) : n / 16 / 3 = n / 48 := Nat.div_div_eq_div_mul n 16 3
theorem div3_16 (n : ℕ) : n / 3 / 16 = n / 48 := Nat.div_div_eq_div_mul n 3 16

/-- The two orders list the same entries: a bijection of the 768 indices. -/
def permEquiv : Fin 768 ≃ Fin 768 where
  toFun := perm
  invFun := permInv
  left_inv k := Fin.ext (by
    have := k.isLt
    have h1 := div16_3 k.val
    have h2 := div3_16 ((k.val % 16 * 16 + k.val / 48) * 3 + k.val / 16 % 3)
    simp only [perm, permInv]; omega)
  right_inv k := Fin.ext (by
    have := k.isLt
    have h1 := div3_16 k.val
    have h2 := div16_3 (k.val / 3 % 16 * 48 + k.val % 3 * 16 + k.val / 48)
    simp only [perm, permInv]; omega)

theorem chanR_perm (k : Fin 768) : chanR (perm k) = chanK k :=
  Fin.ext (by have := k.isLt; have h1 := div16_3 k.val; simp only [chanR, chanK, perm]; omega)
theorem rowR_perm (r : Fin 196) (k : Fin 768) : rowR r (perm k) = rowK r k :=
  Fin.ext (by have := k.isLt; have h1 := div16_3 k.val; simp only [rowR, rowK, perm]; omega)
/-- Of `(p1 · 16 + p2) · 3 + c` with `p2 < 16` and `c < 3`, the quotient by 3 taken modulo 16 is `p2`. -/
theorem mid_digit (p1 p2 c : ℕ) (h2 : p2 < 16) (hc : c < 3) : ((p1 * 16 + p2) * 3 + c) / 3 % 16 = p2 := by omega

theorem colR_perm (r : Fin 196) (k : Fin 768) : colR r (perm k) = colK r k :=
  Fin.ext (by
    have := k.isLt
    show r.val % 14 * 16 + ((k.val % 16 * 16 + k.val / 48) * 3 + k.val / 16 % 3) / 3 % 16 = r.val % 14 * 16 + k.val / 48
    rw [mid_digit _ _ _ (by omega) (by omega)])

/-! ## The result -/

/-- Entry `(b, r, e)` of the result, the row's entries taken channel fastest. -/
def embedAt (x : SX.Idx → EReal) (w : SW.Idx → EReal) (bias : SB.Idx → EReal) (b : Fin 64) (r : Fin 196) (e : Fin 384) : EReal :=
  (∑ k : Fin 768, x (ix4 b (chanR k) (rowR r k) (colR r k)) * w (ix2 k e)) + bias (ix1 e)

/-- The same entry, the row's entries taken pixel row fastest and the weight's rows permuted to match. -/
def embedAtK (x : SX.Idx → EReal) (w : SW.Idx → EReal) (bias : SB.Idx → EReal) (b : Fin 64) (r : Fin 196) (e : Fin 384) : EReal :=
  (∑ k : Fin 768, x (ix4 b (chanK k) (rowK r k) (colK r k)) * w (ix2 (perm k) e)) + bias (ix1 e)

/-- The same 768 terms along the bijection `perm`. -/
theorem embedAtK_eq (x : SX.Idx → EReal) (w : SW.Idx → EReal) (bias : SB.Idx → EReal) (b : Fin 64) (r : Fin 196) (e : Fin 384) :
    embedAtK x w bias b r e = embedAt x w bias b r e := by
  unfold embedAtK embedAt
  refine congrArg (· + bias (ix1 e)) ?_
  rw [← Equiv.sum_comp permEquiv (fun k => x (ix4 b (chanR k) (rowR r k) (colR r k)) * w (ix2 k e))]
  refine Finset.sum_congr rfl fun k _ => ?_
  show _ = x (ix4 b (chanR (perm k)) (rowR r (perm k)) (colR r (perm k))) * w (ix2 (perm k) e)
  rw [chanR_perm, rowR_perm, colR_perm]

/-- The whole result array `[64, 196, 384]`. -/
def embed (x : SX.Idx → EReal) (w : SW.Idx → EReal) (bias : SB.Idx → EReal) : SO.Idx → EReal :=
  fun i => embedAt x w bias (i 0) (i 1) (i 2)

end Cert.Spec

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KernelPayload.lean ====
/-
  The kernel body's one result, read at an index.

  The body takes a block of 8 images x[n, c, H, W] (8 × 3 × 224 × 224) and lays every 16 × 16 patch out as a row of
  768 numbers, by five regroupings, sixteen column cuts and one gathering:

    rows split     [8, 3, 14, 16, 224]   (n, c, hp, p1, W)   is x[n, c, hp·16 + p1, W]
    axes exchanged [8, 14, 3, 16, 224]   (n, hp, c, p1, W)
    axes merged    [8, 14, 48, 224]      (n, hp, q, W)        with q = c·16 + p1
    axes exchanged [8, 14, 224, 48]      (n, hp, W, q)
    columns split  [8, 14, 14, 16, 48]   (n, hp, wp, p2, q)   is W = wp·16 + p2
    column j cut   [8, 14, 14, 48]       (n, hp, wp, q)       at p2 = j, for j = 0 … 15
    gathered       [8, 14, 14, 768]      (n, hp, wp, k)       is column k / 48 at q = k % 48
    rows flattened [1568, 768]           (n·196 + r, k)       with r = hp·14 + wp.

  So entry k of row n·196 + r is the pixel (r / 14 · 16 + k % 16, r % 14 · 16 + k / 48) of channel k / 16 % 3 of
  image n. The rows are multiplied by the 768 × 384 weights into zeros (over the extended reals: the textbook sum
  over k), the bias row is added to every row, and the 1568 rows are read back as [8, 196, 384].
-/
import proofs.«132726_g2000606297638142_pallasbulk_1298_25_alg».proof.Proof.Gen.KernelIdeal.Skeleton
import proofs.«132726_g2000606297638142_pallasbulk_1298_25_alg».proof.Proof.Spec
import proofs.«132726_g2000606297638142_pallasbulk_1298_25_alg».proof.Proof.LibAffineRows

noncomputable section
namespace Cert.KernelIdeal.Pay
open Idealize.ShloMosaic Idealize.ShloMosaic.ValueIdx Cert.KernelIdeal Cert.KernelIdeal.Gen

section Layout
variable {α : Type}

/-- Splitting the image rows into 14 bands of 16: entry (n, c, hp, p1, W) is pixel row hp·16 + p1. -/
theorem rows_split_apply (x : S8x3x224x224.Idx → α) (h : S8x3x224x224.ShapeCasts S8x3x14x16x224)
    (n : Fin 8) (c : Fin 3) (hp : Fin 14) (p1 : Fin 16) (W : Fin 224) :
    shapeCast S8x3x14x16x224 x h (ix5 n c hp p1 W)
      = x (ix4 n c (⟨hp.val * 16 + p1.val, by omega⟩ : Fin 224) W) := by
  refine shapeCast_apply x h _ _ ?_
  rw [Shape.rowMajor_val_four, Shape.rowMajor_val_five]
  show ((n.val * 3 + c.val) * 224 + (hp.val * 16 + p1.val)) * 224 + W.val
    = (((n.val * 3 + c.val) * 14 + hp.val) * 16 + p1.val) * 224 + W.val
  omega

/-- Exchanging the channel axis and the band axis. -/
theorem chan_band_swap_apply (x : S8x3x14x16x224.Idx → α) (h : S8x3x14x16x224.Transposes [0, 2, 1, 3, 4] S8x14x3x16x224)
    (n : Fin 8) (hp : Fin 14) (c : Fin 3) (p1 : Fin 16) (W : Fin 224) :
    transpose S8x14x3x16x224 [0, 2, 1, 3, 4] x h (ix5 n hp c p1 W) = x (ix5 n c hp p1 W) :=
  transpose_apply _ x h _ _ (fun b => match b with
    | ⟨0, _⟩ => rfl | ⟨1, _⟩ => rfl | ⟨2, _⟩ => rfl | ⟨3, _⟩ => rfl | ⟨4, _⟩ => rfl)

/-- Merging channel and row-in-band into one axis of 48: entry q is channel q / 16, row q % 16. -/
theorem chan_row_merge_apply (x : S8x14x3x16x224.Idx → α) (h : S8x14x3x16x224.ShapeCasts S8x14x48x224)
    (n : Fin 8) (hp : Fin 14) (q : Fin 48) (W : Fin 224) :
    shapeCast S8x14x48x224 x h (ix4 n hp q W)
      = x (ix5 n hp (⟨q.val / 16, by omega⟩ : Fin 3) (⟨q.val % 16, by omega⟩ : Fin 16) W) := by
  refine shapeCast_apply x h _ _ ?_
  rw [Shape.rowMajor_val_five, Shape.rowMajor_val_four]
  show (((n.val * 14 + hp.val) * 3 + q.val / 16) * 16 + q.val % 16) * 224 + W.val
    = ((n.val * 14 + hp.val) * 48 + q.val) * 224 + W.val
  omega

/-- Exchanging the last two axes. -/
theorem last_swap_apply (x : S8x14x48x224.Idx → α) (h : S8x14x48x224.Transposes [0, 1, 3, 2] S8x14x224x48)
    (n : Fin 8) (hp : Fin 14) (W : Fin 224) (q : Fin 48) :
    transpose S8x14x224x48 [0, 1, 3, 2] x h (ix4 n hp W q) = x (ix4 n hp q W) :=
  transpose_apply _ x h _ _ (fun b => match b with
    | ⟨0, _⟩ => rfl | ⟨1, _⟩ => rfl | ⟨2, _⟩ => rfl | ⟨3, _⟩ => rfl)

/-- Splitting the pixel columns into 14 bands of 16: entry (n, hp, wp, p2, q) is pixel column wp·16 + p2. -/
theorem cols_split_apply (x : S8x14x224x48.Idx → α) (h : S8x14x224x48.ShapeCasts S8x14x14x16x48)
    (n : Fin 8) (hp : Fin 14) (wp : Fin 14) (p2 : Fin 16) (q : Fin 48) :
    shapeCast S8x14x14x16x48 x h (ix5 n hp wp p2 q)
      = x (ix4 n hp (⟨wp.val * 16 + p2.val, by omega⟩ : Fin 224) q) := by
  refine shapeCast_apply x h _ _ ?_
  rw [Shape.rowMajor_val_four, Shape.rowMajor_val_five]
  show ((n.val * 14 + hp.val) * 224 + (wp.val * 16 + p2.val)) * 48 + q.val
    = (((n.val * 14 + hp.val) * 14 + wp.val) * 16 + p2.val) * 48 + q.val
  omega

/-- The five regroupings composed: entry (n, hp, wp, p2, q) of the regrouped block is the pixel
    (hp·16 + q % 16, wp·16 + p2) of channel q / 16 of image n. -/
theorem regroup_apply (x : S8x3x224x224.Idx → α)
    (h1 : S8x3x224x224.ShapeCasts S8x3x14x16x224) (h2 : S8x3x14x16x224.Transposes [0, 2, 1, 3, 4] S8x14x3x16x224)
    (h3 : S8x14x3x16x224.ShapeCasts S8x14x48x224) (h4 : S8x14x48x224.Transposes [0, 1, 3, 2] S8x14x224x48)
    (h5 : S8x14x224x48.ShapeCasts S8x14x14x16x48)
    (n : Fin 8) (hp : Fin 14) (wp : Fin 14) (p2 : Fin 16) (q : Fin 48) :
    shapeCast S8x14x14x16x48 (transpose S8x14x224x48 [0, 1, 3, 2] (shapeCast S8x14x48x224
        (transpose S8x14x3x16x224 [0, 2, 1, 3, 4] (shapeCast S8x3x14x16x224 x h1) h2) h3) h4) h5 (ix5 n hp wp p2 q)
      = x (ix4 n (⟨q.val / 16, by omega⟩ : Fin 3) (⟨hp.val * 16 + q.val % 16, by omega⟩ : Fin 224)
          (⟨wp.val * 16 + p2.val, by omega⟩ : Fin 224)) := by
  rw [cols_split_apply, last_swap_apply, chan_row_merge_apply, chan_band_swap_apply, rows_split_apply]

/-- Column j of each band, the unit axis dropped: entry (n, hp, wp, q) is entry (n, hp, wp, j, q). -/
theorem column_apply (v : S8x14x14x16x48.Idx → α) (o : Fin 16)
    (hs : S8x14x14x16x48.Slices ![0, 0, 0, o.val, 0] S8x14x14x1x48) (hc : S8x14x14x1x48.ShapeCasts S8x14x14x48)
    (n : Fin 8) (hp : Fin 14) (wp : Fin 14) (q : Fin 48) :
    shapeCast S8x14x14x48 (extractStridedSlice S8x14x14x1x48 ![0, 0, 0, o.val, 0] v hs) hc (ix4 n hp wp q)
      = v (ix5 n hp wp o q) := by
  refine (shapeCast_apply _ hc _ (ix5 n hp wp (0 : Fin 1) q) ?_).trans ?_
  · rw [Shape.rowMajor_val_five, Shape.rowMajor_val_four]
    show (((n.val * 14 + hp.val) * 14 + wp.val) * 1 + 0) * 48 + q.val = ((n.val * 14 + hp.val) * 14 + wp.val) * 48 + q.val
    omega
  · exact slice5_axis3_apply o.val v hs n hp wp (0 : Fin 1) q o rfl

/-- Flattening (image, band row, band column) into one row index of 1568: row n·196 + r is (n, r / 14, r % 14). -/
theorem rows_flatten_apply (v : S8x14x14x768.Idx → α) (h : S8x14x14x768.ShapeCasts S1568x768)
    (n : Fin 8) (r : Fin 196) (k : Fin 768) :
    shapeCast S1568x768 v h (ix2 (⟨n.val * 196 + r.val, by omega⟩ : Fin 1568) k)
      = v (ix4 n (⟨r.val / 14, by omega⟩ : Fin 14) (⟨r.val % 14, Nat.mod_lt _ (by omega)⟩ : Fin 14) k) := by
  refine shapeCast_apply v h _ _ ?_
  rw [Shape.rowMajor_val_four, Shape.rowMajor_val_two]
  show ((n.val * 14 + r.val / 14) * 14 + r.val % 14) * 768 + k.val = (n.val * 196 + r.val) * 768 + k.val
  omega

end Layout

section Gather
variable {α : Type}

/-- Every column offset below 16 leaves room for the one-column band. -/
theorem slices_col (o : Fin 16) : S8x14x14x16x48.Slices ![0, 0, 0, o.val, 0] S8x14x14x1x48 :=
  ⟨rfl, fun a => match a with
    | ⟨0, _⟩ => by show 0 + 8 ≤ 8; omega
    | ⟨1, _⟩ => by show 0 + 14 ≤ 14; omega
    | ⟨2, _⟩ => by show 0 + 14 ≤ 14; omega
    | ⟨3, _⟩ => by have := o.isLt; show o.val + 1 ≤ 16; omega
    | ⟨4, _⟩ => by show 0 + 48 ≤ 48; omega⟩

/-- Column o of each band of the regrouped block, as an array [8, 14, 14, 48]. -/
def col (v : S8x14x14x16x48.Idx → α) (hc : S8x14x14x1x48.ShapeCasts S8x14x14x48) (o : Fin 16) : S8x14x14x48.Idx → α :=
  shapeCast S8x14x14x48 (extractStridedSlice S8x14x14x1x48 ![0, 0, 0, o.val, 0] v (slices_col o)) hc

/-- The sixteen columns laid end to end along the last axis: entry k of a row is entry k % 48 of column k / 48. -/
theorem gather_apply (v : S8x14x14x16x48.Idx → α) (hc : S8x14x14x1x48.ShapeCasts S8x14x14x48)
    (hs0 : S8x14x14x16x48.Slices ![0, 0, 0, 0, 0] S8x14x14x1x48)
    (hs1 : S8x14x14x16x48.Slices ![0, 0, 0, 1, 0] S8x14x14x1x48)
    (hs2 : S8x14x14x16x48.Slices ![0, 0, 0, 2, 0] S8x14x14x1x48)
    (hs3 : S8x14x14x16x48.Slices ![0, 0, 0, 3, 0] S8x14x14x1x48)
    (hs4 : S8x14x14x16x48.Slices ![0, 0, 0, 4, 0] S8x14x14x1x48)
    (hs5 : S8x14x14x16x48.Slices ![0, 0, 0, 5, 0] S8x14x14x1x48)
    (hs6 : S8x14x14x16x48.Slices ![0, 0, 0, 6, 0] S8x14x14x1x48)
    (hs7 : S8x14x14x16x48.Slices ![0, 0, 0, 7, 0] S8x14x14x1x48)
    (hs8 : S8x14x14x16x48.Slices ![0, 0, 0, 8, 0] S8x14x14x1x48)
    (hs9 : S8x14x14x16x48.Slices ![0, 0, 0, 9, 0] S8x14x14x1x48)
    (hs10 : S8x14x14x16x48.Slices ![0, 0, 0, 10, 0] S8x14x14x1x48)
    (hs11 : S8x14x14x16x48.Slices ![0, 0, 0, 11, 0] S8x14x14x1x48)
    (hs12 : S8x14x14x16x48.Slices ![0, 0, 0, 12, 0] S8x14x14x1x48)
    (hs13 : S8x14x14x16x48.Slices ![0, 0, 0, 13, 0] S8x14x14x1x48)
    (hs14 : S8x14x14x16x48.Slices ![0, 0, 0, 14, 0] S8x14x14x1x48)
    (hs15 : S8x14x14x16x48.Slices ![0, 0, 0, 15, 0] S8x14x14x1x48)
    (hcat : Shape.Concatenates [S8x14x14x48, S8x14x14x48, S8x14x14x48, S8x14x14x48, S8x14x14x48, S8x14x14x48, S8x14x14x48, S8x14x14x48, S8x14x14x48, S8x14x14x48, S8x14x14x48, S8x14x14x48, S8x14x14x48, S8x14x14x48, S8x14x14x48, S8x14x14x48] S8x14x14x768 3)
    (n : Fin 8) (hp : Fin 14) (wp : Fin 14) (k : Fin 768) :
    concatenate S8x14x14x768 3 [
        ⟨S8x14x14x48, shapeCast S8x14x14x48 (extractStridedSlice S8x14x14x1x48 ![0, 0, 0, 0, 0] v hs0) hc⟩,
        ⟨S8x14x14x48, shapeCast S8x14x14x48 (extractStridedSlice S8x14x14x1x48 ![0, 0, 0, 1, 0] v hs1) hc⟩,
        ⟨S8x14x14x48, shapeCast S8x14x14x48 (extractStridedSlice S8x14x14x1x48 ![0, 0, 0, 2, 0] v hs2) hc⟩,
        ⟨S8x14x14x48, shapeCast S8x14x14x48 (extractStridedSlice S8x14x14x1x48 ![0, 0, 0, 3, 0] v hs3) hc⟩,
        ⟨S8x14x14x48, shapeCast S8x14x14x48 (extractStridedSlice S8x14x14x1x48 ![0, 0, 0, 4, 0] v hs4) hc⟩,
        ⟨S8x14x14x48, shapeCast S8x14x14x48 (extractStridedSlice S8x14x14x1x48 ![0, 0, 0, 5, 0] v hs5) hc⟩,
        ⟨S8x14x14x48, shapeCast S8x14x14x48 (extractStridedSlice S8x14x14x1x48 ![0, 0, 0, 6, 0] v hs6) hc⟩,
        ⟨S8x14x14x48, shapeCast S8x14x14x48 (extractStridedSlice S8x14x14x1x48 ![0, 0, 0, 7, 0] v hs7) hc⟩,
        ⟨S8x14x14x48, shapeCast S8x14x14x48 (extractStridedSlice S8x14x14x1x48 ![0, 0, 0, 8, 0] v hs8) hc⟩,
        ⟨S8x14x14x48, shapeCast S8x14x14x48 (extractStridedSlice S8x14x14x1x48 ![0, 0, 0, 9, 0] v hs9) hc⟩,
        ⟨S8x14x14x48, shapeCast S8x14x14x48 (extractStridedSlice S8x14x14x1x48 ![0, 0, 0, 10, 0] v hs10) hc⟩,
        ⟨S8x14x14x48, shapeCast S8x14x14x48 (extractStridedSlice S8x14x14x1x48 ![0, 0, 0, 11, 0] v hs11) hc⟩,
        ⟨S8x14x14x48, shapeCast S8x14x14x48 (extractStridedSlice S8x14x14x1x48 ![0, 0, 0, 12, 0] v hs12) hc⟩,
        ⟨S8x14x14x48, shapeCast S8x14x14x48 (extractStridedSlice S8x14x14x1x48 ![0, 0, 0, 13, 0] v hs13) hc⟩,
        ⟨S8x14x14x48, shapeCast S8x14x14x48 (extractStridedSlice S8x14x14x1x48 ![0, 0, 0, 14, 0] v hs14) hc⟩,
        ⟨S8x14x14x48, shapeCast S8x14x14x48 (extractStridedSlice S8x14x14x1x48 ![0, 0, 0, 15, 0] v hs15) hc⟩] hcat (ix4 n hp wp k)
      = v (ix5 n hp wp (⟨k.val / 48, by omega⟩ : Fin 16) (⟨k.val % 48, Nat.mod_lt _ (by omega)⟩ : Fin 48)) := by
  show concatenate S8x14x14x768 3 (List.ofFn fun o : Fin 16 => (⟨S8x14x14x48, col v hc o⟩ : (s : Shape) × (s.Idx → α))) hcat (ix4 n hp wp k) = _
  refine (concatenate_ofFn_apply (t := S8x14x14x768) (s₁ := S8x14x14x48) (3 : Fin 4) (col v hc) hcat rfl 48 rfl (ix4 n hp wp k) (⟨k.val / 48, by omega⟩ : Fin 16) rfl
    (ix4 n hp wp (⟨k.val % 48, Nat.mod_lt _ (by omega)⟩ : Fin 48)) rfl (fun b hb => ?_)).trans ?_
  · match b with
    | ⟨0, _⟩ => rfl
    | ⟨1, _⟩ => rfl
    | ⟨2, _⟩ => rfl
    | ⟨3, _⟩ => exact absurd rfl hb
  · exact column_apply v _ _ hc n hp wp _

end Gather

/-! ## The product's dimension numbers -/

/-- A coordinate of a rank-2 index depends only on the axis' number. -/
theorem idx2_congr (i : S1568x384.Idx) (p q : Nat) (hp : p < 2) (hq : q < 2) (h : p = q) :
    (i ⟨p, hp⟩).val = (i ⟨q, hq⟩).val := by subst h; rfl

/-- The product's dimension numbers are those of the plain product [1568, 768] × [768, 384]: one contracted index,
    the left operand's column and the right operand's row. -/
theorem dot_plain : Cert.Lib.PlainDot dot_S1568x768_S768x384_S1568x384_1_0_0_1_n_n where
  rank := by rw [DotDims.rank_contr]; rfl
  size := (dot_S1568x768_S768x384_S1568x384_1_0_0_1_n_n.size_contr 0 (by decide)).trans rfl
  l0 := fun i q => by
    unfold DotDims.lhsIdx
    simp [dot_S1568x768_S768x384_S1568x384_1_0_0_1_n_n]
    exact idx2_congr i _ _ _ _ (by decide)
  l1 := fun i q => dot_S1568x768_S768x384_S1568x384_1_0_0_1_n_n.lhsIdx_val_of_single (cl := 1) rfl i q
  r0 := fun i q => dot_S1568x768_S768x384_S1568x384_1_0_0_1_n_n.rhsIdx_val_of_single (cr := 0) rfl i q
  r1 := fun i q => by
    unfold DotDims.rhsIdx
    simp [dot_S1568x768_S768x384_S1568x384_1_0_0_1_n_n]
    exact idx2_congr i _ _ _ _ (by decide)

/-! ## The result -/

/-- Entry (n, r, e) of the body's result: the 768 entries of patch r of image n against column e of the weights,
    plus the bias at e. -/
theorem pay_apply (x0 : Vec Ideal S8x3x224x224 .f32) (x1 : Vec Ideal S768x384 .bf16) (x2 : Vec Ideal S1x384 .f32)
    (n : Fin 8) (r : Fin 196) (e : Fin 384) :
    k0_pay1 (F := Ideal) x0 x1 x2 (ix3 n r e)
      = (∑ k : Fin 768, (x0 (ix4 n (Spec.chanK k) (Spec.rowK r k) (Spec.colK r k)) : EReal) * (x1 (ix2 k e) : EReal))
        + (x2 (ix2 (0 : Fin 1) e) : EReal) := by
  unfold k0_pay1
  dsimp only
  -- entry (n, r, e) of the result is entry (n·196 + r, e) of the [1568, 384] sum
  refine (shapeCast_apply _ _ (ix3 n r e) (ix2 (⟨n.val * 196 + r.val, by omega⟩ : Fin 1568) e) ?_).trans ?_
  · rw [Shape.rowMajor_val_two, Shape.rowMajor_val_three]
    rfl
  rw [addf_apply, broadcastTo_1b_ab_apply, shapeCast_self, shapeCast_self]
  refine congrArg (· + (x2 (ix2 (0 : Fin 1) e) : EReal)) ?_
  -- the product into zeros is the sum over the 768 entries of a row
  simp only [matmul]
  rw [Ideal.matmul_constant_zero_apply]
  refine (dot_plain.sum_eq _ _ _ e).trans ?_
  refine Finset.sum_congr rfl fun k _ => ?_
  refine congrArg (· * (x1 (ix2 k e) : EReal)) ?_
  -- entry k of row n·196 + r, read through the regroupings
  refine (rows_flatten_apply _ _ n r k).trans ?_
  refine (gather_apply _ _ _ _ _ _ _ _ _ _ _ _ _ _ _ _ _ _ _ n _ _ k).trans ?_
  refine (regroup_apply _ _ _ _ _ _ n _ _ _ _).trans ?_
  show x0 _ = x0 _
  refine congrArg x0 (funext fun a => Fin.ext ?_)
  have hk := k.isLt
  have hr := r.isLt
  match a with
  | ⟨0, _⟩ => rfl
  | ⟨1, _⟩ => show k.val % 48 / 16 = k.val / 16 % 3; omega
  | ⟨2, _⟩ => show r.val / 14 * 16 + k.val % 48 % 16 = r.val / 14 * 16 + k.val % 16; omega
  | ⟨3, _⟩ => show r.val % 14 * 16 + k.val / 48 = r.val % 14 * 16 + k.val / 48; rfl

end Cert.KernelIdeal.Pay
end
-- ==== Proof.KernelArray.lean ====
/-
  The kernel's result array as one function of the three argument arrays.

  The kernel runs on a grid of eight points. Point `t` is handed images `8 t … 8 t + 7` whole, the weight matrix with
  its rows permuted and the bias as a row, and writes rows `8 t … 8 t + 7` of the result `[64, 196, 384]`.

  Before the launch the host permutes the weight's rows: row `k = p2 · 48 + c · 16 + p1` of the permuted matrix is row
  `(p1 · 16 + p2) · 3 + c` of the weight (`V_w_apply`), and the bias vector becomes one row (`V_b_apply`).

  The body, on its blocks, computes for image `n`, patch `r` and output column `e` the sum over `k` of the pixel that
  entry `k` of the patch row holds (pixel row fastest) times entry `(k, e)` of the permuted weight, plus the bias
  (`Pay.pay_apply`). Read through the blocks (`xblk_apply`, `wblk_apply`, `bblk_apply`) that is entry
  `(8 t + n, r, e)` of the patch embedding with the row's entries taken pixel row fastest, which is the patch
  embedding (`Spec.embedAtK_eq`): `flushed_eq`. The eight blocks tile the result (`cover`), so the array ends
  holding the patch embedding (`final`, `run`).
-/
import proofs.«132726_g2000606297638142_pallasbulk_1298_25_alg».proof.Proof.Gen.KernelIdeal.Value
import proofs.«132726_g2000606297638142_pallasbulk_1298_25_alg».proof.Proof.Spec
import proofs.«132726_g2000606297638142_pallasbulk_1298_25_alg».proof.Proof.KernelPayload
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The three argument arrays, and what the region finds in its windows -/

/-- The images, the weight matrix and the bias vector as launched. -/
abbrev X (c : Dev nD) : Spec.SX.Idx → EReal := m ((c : Thread nD τ).loc main_arg0)
abbrev W (c : Dev nD) : Spec.SW.Idx → EReal := m ((c : Thread nD τ).loc main_arg1)
abbrev B (c : Dev nD) : Spec.SB.Idx → EReal := m ((c : Thread nD τ).loc main_arg2)

/-- The weight window's array: the weight matrix split into `[p1, p2, c, e]`, its first three axes rotated to
    `[p2, c, p1, e]`, flattened again and narrowed (the identity on extended reals). -/
theorem V_w (c : Dev nD) : @Eq (S768x384.Idx → EReal) (V m c main_v3)
    (truncf (F := Ideal) .bf16 (shapeCast S768x384 (transpose S16x3x16x384 [1, 2, 0, 3]
        (shapeCast S16x16x3x384 (W m c) shapeCasts_S768x384_S16x16x3x384) transposes_S16x16x3x384_S16x3x16x384_1_2_0_3)
        shapeCasts_S16x3x16x384_S768x384 : FVec Ideal S768x384 .f32) bitsLt_bf16_f32) := by
  dsimp only [Gen.V, Gen.hostOps0]; after_results; rfl

/-- Row `k = p2 · 48 + c · 16 + p1` of it is row `(p1 · 16 + p2) · 3 + c` of the weight matrix. -/
theorem V_w_apply (c : Dev nD) (k : Fin 768) (e : Fin 384) :
    (V m c main_v3 : S768x384.Idx → EReal) (ix2 k e) = W m c (ix2 (Spec.perm k) e) := by
  rw [V_w, truncf_apply]
  have hk := k.isLt
  have h1 := Spec.div16_3 k.val
  refine (shapeCast_apply _ _ (ix2 k e) (ix4 (⟨k.val / 48, by omega⟩ : Fin 16) (⟨k.val / 16 % 3, by omega⟩ : Fin 3) (⟨k.val % 16, by omega⟩ : Fin 16) e) (by
    rw [Shape.rowMajor_val_two, Shape.rowMajor_val_four]
    show ((k.val / 48 * 3 + k.val / 16 % 3) * 16 + k.val % 16) * 384 + e.val = k.val * 384 + e.val
    omega)).trans ?_
  refine (transpose_apply _ _ _ _ (ix4 (⟨k.val % 16, by omega⟩ : Fin 16) (⟨k.val / 48, by omega⟩ : Fin 16) (⟨k.val / 16 % 3, by omega⟩ : Fin 3) e) (fun b => by
    match b with
    | ⟨0, _⟩ => rfl
    | ⟨1, _⟩ => rfl
    | ⟨2, _⟩ => rfl
    | ⟨3, _⟩ => rfl)).trans ?_
  exact shapeCast_apply _ _ _ (ix2 (Spec.perm k) e) (by
    rw [Shape.rowMajor_val_two, Shape.rowMajor_val_four]
    show ((k.val % 16 * 16 + k.val / 48) * 3 + k.val / 16 % 3) * 384 + e.val = ((k.val % 16 * 16 + k.val / 48) * 3 + k.val / 16 % 3) * 384 + e.val
    rfl)

/-- The bias window's array is the bias vector as one row. -/
theorem V_b (c : Dev nD) : @Eq (S1x384.Idx → EReal) (V m c main_v4) (shapeCast S1x384 (B m c) shapeCasts_S384_S1x384) := by
  dsimp only [Gen.V, Gen.hostOps0]; after_results; rfl

theorem V_b_apply (c : Dev nD) (e : Fin 384) : (V m c main_v4 : S1x384.Idx → EReal) (ix2 (0 : Fin 1) e) = B m c (ix1 e) := by
  rw [V_b]; exact shapeCast_a_1a_apply _ _ _ _

/-! ## The blocks a point reads -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the grid's eight points: point `t` takes images `8 t … 8 t + 7` and writes their rows of
    the result; the weight and bias windows never move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem lt8 (t : Fin cfg0.N) : t.val < 8 := Nat.lt_of_lt_of_eq t.isLt N_0

/-- Image `n` of point `t`'s block is image `8 t + n` of the batch. -/
def img (t : Fin cfg0.N) (n : Fin 8) : Fin 64 := ⟨t.val * 8 + n.val, by have := lt8 t; omega⟩

theorem xblk_apply (c : Dev nD) (t : Fin cfg0.N) (n : Fin 8) (ch : Fin 3) (row col : Fin 224) :
    (iblk m c 0 t : S8x3x224x224.Idx → EReal) (ix4 n ch row col) = X m c (ix4 (img t n) ch row col) := by
  obtain ⟨e0, e1, e2, e3, -⟩ := idx_facts t
  show V m c main_arg0 (((cfg0.win 0).blk t).view.emb (ix4 n ch row col)) = _
  rw [V_main_arg0 m c]
  refine congrArg (m ((c : Thread nD τ).loc main_arg0)) (funext fun a => Fin.ext ?_)
  match a with
  | ⟨0, _⟩ => show win0_0.index t (0 : Fin 4) * 8 + 1 * n.val = t.val * 8 + n.val; omega
  | ⟨1, _⟩ => show win0_0.index t (1 : Fin 4) * 3 + 1 * ch.val = ch.val; omega
  | ⟨2, _⟩ => show win0_0.index t (2 : Fin 4) * 224 + 1 * row.val = row.val; omega
  | ⟨3, _⟩ => show win0_0.index t (3 : Fin 4) * 224 + 1 * col.val = col.val; omega

theorem wblk_apply (c : Dev nD) (t : Fin cfg0.N) (k : Fin 768) (e : Fin 384) :
    (iblk m c 1 t : S768x384.Idx → EReal) (ix2 k e) = W m c (ix2 (Spec.perm k) e) := by
  obtain ⟨-, -, -, -, e0, e1, -⟩ := idx_facts t
  show V m c main_v3 (((cfg0.win 1).blk t).view.emb (ix2 k e)) = _
  have h : ((cfg0.win 1).blk t).view.emb (ix2 k e) = ix2 k e := funext fun a => Fin.ext (by
    match a with
    | ⟨0, _⟩ => show win0_1.index t (0 : Fin 2) * 768 + 1 * k.val = k.val; omega
    | ⟨1, _⟩ => show win0_1.index t (1 : Fin 2) * 384 + 1 * e.val = e.val; omega)
  rw [h]
  exact V_w_apply m c k e

theorem bblk_apply (c : Dev nD) (t : Fin cfg0.N) (e : Fin 384) :
    (iblk m c 2 t : S1x384.Idx → EReal) (ix2 (0 : Fin 1) e) = B m c (ix1 e) := by
  obtain ⟨-, -, -, -, -, -, e0, e1, -⟩ := idx_facts t
  show V m c main_v4 (((cfg0.win 2).blk t).view.emb (ix2 (0 : Fin 1) e)) = _
  have h : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 384 + 1 * e.val = e.val; omega)
  rw [h]
  exact V_b_apply m c e

/-! ## What a point writes back -/

/-- Point `t` writes block `t` of the patch embedding of the three argument arrays. -/
theorem flushed_eq (c : Dev nD) (t : Fin cfg0.N) :
    (dats m 0 c).flushed 3 t = ((cfg0.win 3).blk t).view.read (Elt Ideal) (Spec.embed (X m c) (W m c) (B m c)) := by
  rw [Value.flushed3]
  unfold out0_3
  rw [View.canon_unit_zero hz3]
  simp only [View.ld_unit_zero (S := S8x3x224x224) hz4, View.ld_unit_zero (S := S768x384) hz2, View.ld_unit_zero (S := S1x384) hz2]
  funext j
  obtain ⟨n, r, e, rfl⟩ : ∃ (n : Fin 8) (r : Fin 196) (e : Fin 384), j = ix3 n r e := ⟨j 0, j 1, j 2, eq_ix3 j⟩
  obtain ⟨-, -, -, -, -, -, -, -, e0, e1, e2⟩ := idx_facts t
  have hemb : ((cfg0.win 3).blk t).view.emb (ix3 n r e) = ix3 (img t n) r e := funext fun a => Fin.ext (by
    match a with
    | ⟨0, _⟩ => show win0_3.index t (0 : Fin 3) * 8 + 1 * n.val = t.val * 8 + n.val; omega
    | ⟨1, _⟩ => show win0_3.index t (1 : Fin 3) * 196 + 1 * r.val = r.val; omega
    | ⟨2, _⟩ => show win0_3.index t (2 : Fin 3) * 384 + 1 * e.val = e.val; omega)
  show k0_pay1 (F := Ideal) (iblk m c 0 t) (iblk m c 1 t) (iblk m c 2 t) (ix3 n r e)
    = Spec.embed (X m c) (W m c) (B m c) (((cfg0.win 3).blk t).view.emb (ix3 n r e))
  rw [hemb]
  show _ = Spec.embedAt (X m c) (W m c) (B m c) (img t n) r e
  rw [← Spec.embedAtK_eq]
  refine (Pay.pay_apply (iblk m c 0 t) (iblk m c 1 t) (iblk m c 2 t) n r e).trans ?_
  unfold Spec.embedAtK
  rw [bblk_apply m c t e]
  refine congrArg (· + B m c (ix1 e)) (Finset.sum_congr rfl fun k _ => ?_)
  rw [xblk_apply m c t n (Spec.chanK k) (Spec.rowK r k) (Spec.colK r k), wblk_apply m c t k e]

/-! ## The whole array -/

/-- An index of the result is in point `t`'s block iff each coordinate is in the block's range. -/
theorem mem_blk (t : Fin cfg0.N) (i : S64x196x384.Idx) :
    i ∈ ((cfg0.win 3).blk t).view.set ↔ ∀ a : Fin 3, win0_3.index t a * S8x196x384.size a ≤ (i a).val ∧ (i a).val < win0_3.index t a * S8x196x384.size a + S8x196x384.size a := by
  show i ∈ ((View.whole main_v5).slice (win0_3.rect t)).set ↔ _
  rw [View.set_slice_whole, Rect.mem_set_unit]
  exact Iff.rfl

/-- The eight blocks cover the result: image `b` lies in the block of point `b / 8`. -/
theorem cover (i : S64x196x384.Idx) : ∃ t : Fin cfg0.N, (cfg0.win 3).flush t = true ∧ i ∈ ((cfg0.win 3).blk t).view.set := by
  have hi0 : (i 0).val < 64 := (i 0).isLt
  have hi1 : (i 1).val < 196 := (i 1).isLt
  have hi2 : (i 2).val < 384 := (i 2).isLt
  let t : Fin cfg0.N := ⟨(i 0).val / 8, by rw [show cfg0.N = 8 from N_0]; omega⟩
  obtain ⟨-, -, -, -, -, -, -, -, e0, e1, e2⟩ := idx_facts t
  have ht : t.val = (i 0).val / 8 := rfl
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 196 ≤ (i 1).val ∧ (i 1).val < win0_3.index t (1 : Fin 3) * 196 + 196; omega
  | ⟨2, _⟩ => show win0_3.index t (2 : Fin 3) * 384 ≤ (i 2).val ∧ (i 2).val < win0_3.index t (2 : Fin 3) * 384 + 384; omega

/-- After the run the result array is the patch embedding of the argument arrays. -/
theorem final (c : Dev nD) : (dats m 0 c).arrAt 3 cfg0.N = Spec.embed (X m c) (W m c) (B m c) :=
  (dats m 0 c).arrAt_eq_of_cover 3 (Spec.embed (X m c) (W m c) (B m c)) (fun t _ => flushed_eq m c t) cover

/-- The program's run, read: the result at the patch embedding of the arguments, the arguments unchanged. -/
theorem run : θ_run defs (onTc (τ := τ) (main (F := Ideal))) ⟨m, fun _ => 0, ρ⟩ fun r => ∀ c : Dev nD,
      r.2.mem ((c : Thread nD τ).loc main_v5)
        = Spec.embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefPayload.lean ====
/-
  The body of the one kernel region of the plain program, read at an index.

  The body takes a block of 256 rows of the patch matrix, the whole weight matrix and the bias row, and leaves
  the block times the weight matrix (a matrix unit's product into zeros) plus the bias row repeated over the
  256 rows. Over the extended reals the product at (r, e) is the textbook sum over the 768 entries of row r.
-/
import proofs.«132726_g2000606297638142_pallasbulk_1298_25_alg».proof.Proof.Gen.ReferenceIdeal.Skeleton
import proofs.«132726_g2000606297638142_pallasbulk_1298_25_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen

/-- The left operand's row is the result's row. -/
theorem lhs_row (i : S256x384.Idx) (q : dot_S256x768_S768x384_S256x384_1_0_0_1_n_n.contr.Idx) :
    (dot_S256x768_S768x384_S256x384_1_0_0_1_n_n.lhsIdx i q 0).val = (i 0).val := by
  simp only [DotDims.lhsIdx, dot_S256x768_S768x384_S256x384_1_0_0_1_n_n, List.not_mem_nil, List.mem_singleton, dite_true, dite_false, Fin.val_cast]
  rfl

/-- The left operand's column is the contracted index. -/
theorem lhs_col (i : S256x384.Idx) (q : dot_S256x768_S768x384_S256x384_1_0_0_1_n_n.contr.Idx) :
    (dot_S256x768_S768x384_S256x384_1_0_0_1_n_n.lhsIdx i q 1).val = (q ⟨0, by decide⟩).val :=
  dot_S256x768_S768x384_S256x384_1_0_0_1_n_n.lhsIdx_val_of_single (cl := 1) rfl i q

/-- The right operand's row is the contracted index. -/
theorem rhs_row (i : S256x384.Idx) (q : dot_S256x768_S768x384_S256x384_1_0_0_1_n_n.contr.Idx) :
    (dot_S256x768_S768x384_S256x384_1_0_0_1_n_n.rhsIdx i q 0).val = (q ⟨0, by decide⟩).val :=
  dot_S256x768_S768x384_S256x384_1_0_0_1_n_n.rhsIdx_val_of_single (cr := 0) rfl i q

/-- The right operand's column is the result's column. -/
theorem rhs_col (i : S256x384.Idx) (q : dot_S256x768_S768x384_S256x384_1_0_0_1_n_n.contr.Idx) :
    (dot_S256x768_S768x384_S256x384_1_0_0_1_n_n.rhsIdx i q 1).val = (i 1).val := by
  simp only [DotDims.rhsIdx, dot_S256x768_S768x384_S256x384_1_0_0_1_n_n, List.not_mem_nil, List.mem_singleton, dite_true, dite_false, Fin.val_cast]
  rfl

/-- The block product's dimension numbers are those of the plain product of a 256 × 768 by a 768 × 384 matrix. -/
theorem plainDot : Cert.Lib.PlainDot (R := 256) (K := 768) (M := 384) dot_S256x768_S768x384_S256x384_1_0_0_1_n_n where
  rank := rfl
  size := rfl
  l0 := lhs_row
  l1 := lhs_col
  r0 := rhs_row
  r1 := rhs_col

/-- THE BODY AT AN INDEX: row `r` of the block against column `e` of the weight matrix, plus the bias at `e`. -/
theorem pay_apply (x0 : Vec Ideal S256x768 .f32) (x1 : Vec Ideal S768x384 .f32) (x2 : Vec Ideal S1x384 .f32)
    (r : Fin 256) (e : Fin 384) :
    k0_pay1 x0 x1 x2 (ix2 r e) = (∑ k : Fin 768, x0 (ix2 r k) * x1 (ix2 k e)) + x2 (ix2 (0 : Fin 1) e) := by
  unfold k0_pay1
  rw [addf_apply, broadcastTo_1b_ab_apply, shapeCast_self, shapeCast_self]
  simp only [matmul]
  rw [Ideal.matmul_constant_zero_apply]
  exact congrArg (· + x2 (ix2 (0 : Fin 1) e)) (plainDot.sum_eq (fun i => x0 i) (fun i => x1 i) r e)

end Cert.ReferenceIdeal.RefValue

end
-- ==== Proof.RefHost.lean ====
/-
  The arrays the kernel region of the plain program finds, read at an index.

  Before the region the host cuts the image array x[b, c, H, W] into patches: it splits H into (hp, p1) and W into
  (wp, p2), moves the axes to the order (b, hp, wp, p1, p2, c), and flattens to a matrix of 64 · 196 rows and
  16 · 16 · 3 columns. Row b · 196 + r with r = hp · 14 + wp, column k = (p1 · 16 + p2) · 3 + c of that matrix is
  x[b, c, hp · 16 + p1, wp · 16 + p2]. The bias vector is made a row of a one-row matrix.
-/
import proofs.«132726_g2000606297638142_pallasbulk_1298_25_alg».proof.Proof.Gen.ReferenceIdeal.Frame
import proofs.«132726_g2000606297638142_pallasbulk_1298_25_alg».proof.Proof.Spec
import Idealize.ShloMosaic.Lib.ValueIdx
import Idealize.ShloMosaic.Lib.ValueIdxRank6
import Idealize.ShloMosaic.Lib.Pipeline.Value
import Idealize.ShloMosaic.Lib.StableHlo.Run

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-- The patch matrix made of an image array: split, reorder, flatten. -/
def patches (x : S64x3x224x224.Idx → EReal) : S12544x768.Idx → EReal :=
  shapeCast S12544x768
    (transpose S64x14x14x16x16x3 [0, 2, 4, 3, 5, 1]
      (shapeCast S64x3x14x16x14x16 x shapeCasts_S64x3x224x224_S64x3x14x16x14x16)
      transposes_S64x3x14x16x14x16_S64x14x14x16x16x3_0_2_4_3_5_1)
    shapeCasts_S64x14x14x16x16x3_S12544x768

/-- THE PATCH MATRIX AT AN INDEX: row `b · 196 + r`, column `k` is the pixel of image `b` that entry `k` of patch `r`
    names, the channel running fastest along the row. -/
theorem patches_apply (x : S64x3x224x224.Idx → EReal) (b : Fin 64) (r : Fin 196) (k : Fin 768) (row : Fin 12544)
    (hrow : row.val = b.val * 196 + r.val) :
    patches x (ix2 row k) = x (ix4 b (Spec.chanR k) (Spec.rowR r k) (Spec.colR r k)) := by
  have hb := b.isLt
  have hr := r.isLt
  have hk := k.isLt
  have h48 := Spec.div3_16 k.val
  unfold patches
  refine (shapeCast_apply _ _ (ix2 row k)
    (ix6 b (⟨r.val / 14, by omega⟩ : Fin 14) (⟨r.val % 14, by omega⟩ : Fin 14) (⟨k.val / 48, by omega⟩ : Fin 16)
      (⟨k.val / 3 % 16, by omega⟩ : Fin 16) (⟨k.val % 3, by omega⟩ : Fin 3)) ?_).trans ?_
  · rw [Shape.rowMajor_val_two, Shape.rowMajor_val_six]
    show ((((b.val * 14 + r.val / 14) * 14 + r.val % 14) * 16 + k.val / 48) * 16 + k.val / 3 % 16) * 3 + k.val % 3
      = row.val * 768 + k.val
    omega
  refine (transpose_apply _ _ _ _
    (ix6 b (⟨k.val % 3, by omega⟩ : Fin 3) (⟨r.val / 14, by omega⟩ : Fin 14) (⟨k.val / 48, by omega⟩ : Fin 16)
      (⟨r.val % 14, by omega⟩ : Fin 14) (⟨k.val / 3 % 16, by omega⟩ : Fin 16))
    (fun a => match a with
      | ⟨0, _⟩ => rfl | ⟨1, _⟩ => rfl | ⟨2, _⟩ => rfl | ⟨3, _⟩ => rfl | ⟨4, _⟩ => rfl | ⟨5, _⟩ => rfl)).trans ?_
  refine shapeCast_apply _ _ _ (ix4 b (Spec.chanR k) (Spec.rowR r k) (Spec.colR r k)) ?_
  rw [Shape.rowMajor_val_four, Shape.rowMajor_val_six]
  show ((b.val * 3 + k.val % 3) * 224 + (r.val / 14 * 16 + k.val / 48)) * 224 + (r.val % 14 * 16 + k.val / 3 % 16)
    = ((((b.val * 3 + k.val % 3) * 14 + r.val / 14) * 16 + k.val / 48) * 14 + r.val % 14) * 16 + k.val / 3 % 16
  omega

/-- The bias vector as a one-row matrix reads the vector along its row. -/
theorem biasRow_apply (bias : S384.Idx → EReal) (e : Fin 384) :
    shapeCast S1x384 bias shapeCasts_S384_S1x384 (ix2 (0 : Fin 1) e) = bias (ix1 e) := by
  refine shapeCast_apply _ _ _ (ix1 e) ?_
  rw [Shape.rowMajor_val_one, Shape.rowMajor_val_two]
  show e.val = 0 * 384 + e.val
  omega

/-- The result matrix of 64 · 196 rows cut into 64 images of 196 patches: entry `(b, r, e)` is row `b · 196 + r`. -/
theorem unflatten_apply (y : S12544x384.Idx → EReal) (b : Fin 64) (r : Fin 196) (e : Fin 384) (row : Fin 12544)
    (hrow : row.val = b.val * 196 + r.val) :
    shapeCast S64x196x384 y shapeCasts_S12544x384_S64x196x384 (ix3 b r e) = y (ix2 row e) := by
  refine shapeCast_apply _ _ _ (ix2 row e) ?_
  rw [Shape.rowMajor_val_two, Shape.rowMajor_val_three]
  show row.val * 384 + e.val = (b.val * 196 + r.val) * 384 + e.val
  rw [hrow]

variable (m : (ℓ : Loc nD τ sig) → Buf (Elt Ideal) ℓ)

/-- The region finds the patch matrix of the image argument in its first window's array. -/
theorem V_patches (c : Dev nD) :
    (V m c main_call0_v2 : S12544x768.Idx → EReal) = patches (m ((c : Thread nD τ).loc main_arg0)) := by
  show StableHlo.after hostOps0 (fun b => m (c, b)) (Proc.devRef .tc main_call0_v2) = _
  after_results
  rfl

/-- And the bias argument as a one-row matrix in its third window's array. -/
theorem V_biasRow (c : Dev nD) :
    (V m c main_call0_v3 : S1x384.Idx → EReal)
      = shapeCast S1x384 (m ((c : Thread nD τ).loc main_arg2) : S384.Idx → EReal) shapeCasts_S384_S1x384 := by
  show StableHlo.after hostOps0 (fun b => m (c, b)) (Proc.devRef .tc main_call0_v3) = _
  after_results
  rfl

end Cert.ReferenceIdeal.RefValue

end
-- ==== Proof.RefArray.lean ====
/-
  The run of the plain program, read as the patch embedding.

  The one kernel region walks 49 points; at point t it takes rows 256 t … 256 t + 255 of the patch matrix, the whole
  weight matrix and the bias row, and writes rows 256 t … 256 t + 255 of a result matrix of 64 · 196 rows. Row
  ρ = b · 196 + r of the patch matrix lists the pixels of patch r of image b, the channel running fastest, so the body
  leaves at (ρ, e) the sum over the 768 entries of that patch times column e of the weights, plus the bias at e. The
  49 blocks tile the result matrix (row ρ lies in the block of point ρ / 256), so after the region the matrix holds that
  value everywhere; the host then cuts its rows into 64 images of 196 patches, which is the patch embedding.
-/
import proofs.«132726_g2000606297638142_pallasbulk_1298_25_alg».proof.Proof.Gen.ReferenceIdeal.Frame
import proofs.«132726_g2000606297638142_pallasbulk_1298_25_alg».proof.Proof.Spec
import proofs.«132726_g2000606297638142_pallasbulk_1298_25_alg».proof.Proof.RefPayload
import proofs.«132726_g2000606297638142_pallasbulk_1298_25_alg».proof.Proof.RefHost
import Idealize.ShloMosaic.Lib.ValueIdx
import Idealize.ShloMosaic.Lib.Pipeline.Value
import Idealize.ShloMosaic.Lib.StableHlo.Run
import Idealize.ShloMosaic.Lib.Tactic

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem zeros2 : (![0, 0] : Fin 2 → Nat) = fun _ => 0 := funext fun a => by fin_cases a <;> rfl

/-- The result as a matrix of 64 · 196 rows: row `b · 196 + r` is patch `r` of image `b`. -/
def rowsOut (x : Spec.SX.Idx → EReal) (w : Spec.SW.Idx → EReal) (bias : Spec.SB.Idx → EReal) : S12544x384.Idx → EReal :=
  fun i => Spec.embedAt x w bias ⟨(i 0).val / 196, by have h : (i 0).val < 12544 := (i 0).isLt; omega⟩
    ⟨(i 0).val % 196, by omega⟩ (i 1)

/-- The windows' index maps, decided once over the 49 points: the blocks of the patch matrix and of the result move
    down with the point, the weight matrix and the bias row are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point `t` is rows `256 t … 256 t + 255` of the patch matrix. -/
theorem iblk0_apply (c : Dev nD) (t : Fin cfg0.N) (r : Fin 256) (k : Fin 768) (row : Fin 12544)
    (hrow : row.val = t.val * 256 + r.val) :
    (iblk m c 0 t : Vec Ideal S256x768 .f32) (ix2 r k) = (V m c main_call0_v2 : S12544x768.Idx → EReal) (ix2 row k) := by
  obtain ⟨e0, e1, -⟩ := idx_facts t
  unfold iblk
  rw [View.read_apply]
  show V m c main_call0_v2 _ = V m c main_call0_v2 _
  congr 1
  funext a
  apply Fin.ext
  match a with
  | ⟨0, _⟩ => show win0_0.index t 0 * 256 + 1 * r.val = row.val; rw [e0, hrow]; omega
  | ⟨1, _⟩ => show win0_0.index t 1 * 768 + 1 * k.val = k.val; rw [e1]; omega

/-- The second window's block is the whole weight matrix. -/
theorem iblk1_apply (c : Dev nD) (t : Fin cfg0.N) (k : Fin 768) (e : Fin 384) :
    (iblk m c 1 t : Vec Ideal S768x384 .f32) (ix2 k e) = (V m c main_arg1 : S768x384.Idx → EReal) (ix2 k e) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 768 + 1 * k.val = k.val; rw [e0]; omega
  | ⟨1, _⟩ => show win0_1.index t 1 * 384 + 1 * e.val = e.val; rw [e1]; omega

/-- The third window's block is the whole bias row. -/
theorem iblk2_apply (c : Dev nD) (t : Fin cfg0.N) (e : Fin 384) :
    (iblk m c 2 t : Vec Ideal S1x384 .f32) (ix2 (0 : Fin 1) e) = (V m c main_call0_v3 : S1x384.Idx → EReal) (ix2 (0 : Fin 1) e) := by
  obtain ⟨-, -, -, -, e0, e1, -⟩ := idx_facts t
  unfold iblk
  rw [View.read_apply]
  show V m c main_call0_v3 _ = V m c main_call0_v3 _
  congr 1
  funext a
  apply Fin.ext
  match a with
  | ⟨0, _⟩ => show win0_2.index t 0 * 1 + 1 * 0 = 0; rw [e0]
  | ⟨1, _⟩ => show win0_2.index t 1 * 384 + 1 * e.val = e.val; rw [e1]; omega

/-- THE BODY ON THE BLOCKS OF POINT `t`, at row `r` and column `e` of the block, is the result matrix at row
    `256 t + r`: the block's row is that row of the patch matrix, whose entries are the pixels of one patch. -/
theorem block_value (c : Dev nD) (t : Fin cfg0.N) (r : Fin 256) (e : Fin 384) (i : S12544x384.Idx)
    (hi0 : (i 0).val = t.val * 256 + r.val) (hi1 : (i 1).val = e.val) :
    k0_pay1 (iblk m c 0 t) (iblk m c 1 t) (iblk m c 2 t) (ix2 r e)
      = rowsOut (m ((c : Thread nD τ).loc main_arg0)) (m ((c : Thread nD τ).loc main_arg1)) (m ((c : Thread nD τ).loc main_arg2)) i := by
  have hlt : (i 0).val < 12544 := (i 0).isLt
  have he : (i 1 : Fin 384) = e := Fin.ext hi1
  refine (pay_apply (iblk m c 0 t) (iblk m c 1 t) (iblk m c 2 t) r e).trans ?_
  unfold rowsOut Spec.embedAt
  rw [he, iblk2_apply m c t e, V_biasRow m c, biasRow_apply]
  refine congrArg (· + (m ((c : Thread nD τ).loc main_arg2) : S384.Idx → EReal) (ix1 e)) (Finset.sum_congr rfl fun k _ => ?_)
  rw [iblk0_apply m c t r k ⟨(i 0).val, hlt⟩ hi0, iblk1_apply m c t k e, V_patches m c,
    patches_apply _ ⟨(i 0).val / 196, by omega⟩ ⟨(i 0).val % 196, by omega⟩ k ⟨(i 0).val, hlt⟩ (by show (i 0).val = (i 0).val / 196 * 196 + (i 0).val % 196; omega),
    V_main_arg1 m c]

/-- WHAT POINT `t` WRITES BACK is block `t` of the result matrix. -/
theorem flushed_eq (c : Dev nD) (t : Fin cfg0.N) :
    (dats m 0 c).flushed 3 t = ((cfg0.win 3).blk t).view.read (Elt Ideal)
      (rowsOut (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zeros2]
  simp only [View.ld_unit_zero (S := S256x768) zeros2, View.ld_unit_zero (S := S768x384) zeros2, View.ld_unit_zero (S := S1x384) zeros2]
  obtain ⟨-, -, -, -, -, -, e0, e1⟩ := idx_facts t
  funext j
  show k0_pay1 (iblk m c 0 t) (iblk m c 1 t) (iblk m c 2 t) j = rowsOut _ _ _ (((cfg0.win 3).blk t).view.emb j)
  have hj : (j : S256x384.Idx) = ix2 (j 0) (j 1) := eq_ix2 j
  rw [hj]
  refine block_value m c t (j 0) (j 1) _ ?_ ?_
  · show win0_3.index t (0 : Fin 2) * 256 + 1 * (j 0).val = t.val * 256 + (j 0).val; rw [e0]; omega
  · show win0_3.index t (1 : Fin 2) * 384 + 1 * (j 1).val = (j 1).val; rw [e1]; omega

/-- An index of the result matrix is in point `t`'s block iff each coordinate is in the block's range on its axis. -/
theorem mem_blk (t : Fin cfg0.N) (i : S12544x384.Idx) :
    i ∈ ((cfg0.win 3).blk t).view.set ↔ ∀ a : Fin 2, win0_3.index t a * S256x384.size a ≤ (i a).val ∧ (i a).val < win0_3.index t a * S256x384.size a + S256x384.size a := by
  show i ∈ ((View.whole main_call0_v4).slice (win0_3.rect t)).set ↔ _
  rw [View.set_slice_whole, Rect.mem_set_unit]
  exact Iff.rfl

/-- Every row of the result matrix is written back: row `ρ` by point `ρ / 256`. -/
theorem covered (i : S12544x384.Idx) :
    ∃ t : Fin cfg0.N, (cfg0.win 3).flush t = true ∧ i ∈ ((cfg0.win 3).blk t).view.set := by
  have h0 : (i 0).val < 12544 := (i 0).isLt
  have h1 : (i 1).val < 384 := (i 1).isLt
  have hN : cfg0.N = 49 := N_0
  obtain ⟨t, ht⟩ : ∃ t : Fin cfg0.N, t.val = (i 0).val / 256 := ⟨⟨(i 0).val / 256, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; rw [e0, ht]; omega
  | ⟨1, _⟩ => show win0_3.index t (1 : Fin 2) * 384 ≤ (i 1).val ∧ (i 1).val < win0_3.index t (1 : Fin 2) * 384 + 384; rw [e1]; omega

/-- THE RESULT MATRIX after the region. -/
theorem final (c : Dev nD) : (dats m 0 c).arrAt 3 cfg0.N
    = rowsOut (m ((c : Thread nD τ).loc main_arg0)) (m ((c : Thread nD τ).loc main_arg1)) (m ((c : Thread nD τ).loc main_arg2)) :=
  (dats m 0 c).arrAt_eq_of_cover 3 _ (fun t _ => flushed_eq m c t) covered

/-- The host operation after the region cuts the result matrix into images: the program's result is the patch embedding. -/
theorem tail_eq (c : Dev nD) : Pipeline.afterTail₀ cfgs (dats m) 0 (V0 m) [hostOps1] c main_v0
    = Spec.embed (m ((c : Thread nD τ).loc main_arg0)) (m ((c : Thread nD τ).loc main_arg1)) (m ((c : Thread nD τ).loc main_arg2)) := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v4)
      = rowsOut (m ((c : Thread nD τ).loc main_arg0)) (m ((c : Thread nD τ).loc main_arg1)) (m ((c : Thread nD τ).loc main_arg2)) :=
    (Pipeline.withArrays_arr spec0 launch0.win.arr_inj c _ _ 3).trans (final m c)
  funext (i : S64x196x384.Idx)
  show shapeCast S64x196x384 (Pipeline.withArrays (cfgs 0).spec c (V0 m c) (fun w => (dats m 0 c).arrAt w (cfgs 0).N) (Proc.devRef .tc main_call0_v4))
    shapeCasts_S12544x384_S64x196x384 i = _
  rw [hw]
  obtain ⟨b, r, e, rfl⟩ : ∃ (b : Fin 64) (r : Fin 196) (e : Fin 384), i = ix3 b r e := ⟨i 0, i 1, i 2, eq_ix3 i⟩
  have hb := b.isLt
  have hr := r.isLt
  refine (unflatten_apply _ b r e ⟨b.val * 196 + r.val, by omega⟩ rfl).trans ?_
  have eb : (⟨(b.val * 196 + r.val) / 196, by omega⟩ : Fin 64) = b := Fin.ext (by show (b.val * 196 + r.val) / 196 = b.val; omega)
  have er : (⟨(b.val * 196 + r.val) % 196, by omega⟩ : Fin 196) = r := Fin.ext (by show (b.val * 196 + r.val) % 196 = r.val; omega)
  show Spec.embedAt _ _ _ ⟨(b.val * 196 + r.val) / 196, _⟩ ⟨(b.val * 196 + r.val) % 196, _⟩ e = Spec.embedAt _ _ _ b r e
  rw [eb, er]

/-- THE RUN OF THE PLAIN PROGRAM: on every core the result array ends at the patch embedding of the three argument arrays,
    and the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
        = Spec.embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.RefValue

end
-- ==== Proof.lean ====
/-
  A ViT patch embedding, fused, against the plain one.

  Both programs take images `x : [64, 3, 224, 224]`, a weight `w : [768, 384]` and a bias `[384]`, cut every image into
  14 × 14 patches of 16 × 16 pixels, lay each patch out as a row of 768 numbers, multiply by `w` and add the bias:
  `out[b, r, e] = Σ_k row(b, r)[k] · w[k, e] + bias[e]` (`Spec.embed`).

  The reference builds the rows on the host (channel fastest, the order of `w`'s rows) and multiplies 256 rows at a
  time. The kernel builds the rows inside its body from eight whole images at a time, pixel row fastest, and multiplies
  by `w` with its rows permuted to that order; it narrows both operands to bf16 first, which is the identity on the
  extended reals. So each entry of the two results is the same 768 products added in two orders
  (`Spec.embedAtK_eq`): equal in any commutative monoid, with no use of the inputs' finiteness.

  The three frames are the generated ones; the ideal pass rewrote nothing, so the kernel's idealization is its own text.
-/
import proofs.«132726_g2000606297638142_pallasbulk_1298_25_alg».proof.Defs
import proofs.«132726_g2000606297638142_pallasbulk_1298_25_alg».proof.Proof.Gen.Kernel
import proofs.«132726_g2000606297638142_pallasbulk_1298_25_alg».proof.Proof.Gen.Kernel.Frame
import proofs.«132726_g2000606297638142_pallasbulk_1298_25_alg».proof.Proof.Gen.KernelIdeal
import proofs.«132726_g2000606297638142_pallasbulk_1298_25_alg».proof.Proof.Gen.KernelIdeal.Frame
import proofs.«132726_g2000606297638142_pallasbulk_1298_25_alg».proof.Proof.Gen.ReferenceIdeal
import proofs.«132726_g2000606297638142_pallasbulk_1298_25_alg».proof.Proof.Gen.ReferenceIdeal.Frame
import proofs.«132726_g2000606297638142_pallasbulk_1298_25_alg».proof.Proof.Gen.Pre_finite_inputs
import proofs.«132726_g2000606297638142_pallasbulk_1298_25_alg».proof.Proof.Spec
import proofs.«132726_g2000606297638142_pallasbulk_1298_25_alg».proof.Proof.KernelArray
import proofs.«132726_g2000606297638142_pallasbulk_1298_25_alg».proof.Proof.RefArray

noncomputable section

namespace Cert.Proof

open Idealize.ShloMosaic Idealize.ShloMosaic.TcCoe Idealize.SL.Sem

/-- The word-level kernel runs and keeps its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both idealized programs end with the patch embedding of their arguments, and the arguments agree: equal results.
    The two sums run over the same 768 products in two orders, so no finiteness of the inputs is used. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
